-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 128#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x128 : Shape := ⟨2, ![262144, 128]⟩
abbrev S262144 : Shape := ⟨1, ![262144]⟩
abbrev S2048x128x128 : Shape := ⟨3, ![2048, 128, 128]⟩
abbrev S2048x128 : Shape := ⟨2, ![2048, 128]⟩
abbrev S16x128 : Shape := ⟨2, ![16, 128]⟩
abbrev S64x128x128 : Shape := ⟨3, ![64, 128, 128]⟩
abbrev S64x128 : Shape := ⟨2, ![64, 128]⟩
abbrev S8x128 : Shape := ⟨2, ![8, 128]⟩
abbrev S64x128x1 : Shape := ⟨3, ![64, 128, 1]⟩
abbrev S64x1 : Shape := ⟨2, ![64, 1]⟩
abbrev S64x1x1 : Shape := ⟨3, ![64, 1, 1]⟩
abbrev S1x1 : Shape := ⟨2, ![1, 1]⟩
abbrev S1x1x1 : Shape := ⟨3, ![1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S2048x128x128, .f32⟩
  | .hbm, ⟨3, _⟩ => ⟨S2048x128, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x128x128, .f32⟩
  | .local _ .vmem, ⟨1, _⟩ => ⟨S64x128x128, .f32⟩
  | .local _ .vmem, ⟨2, _⟩ => ⟨S64x128, .i32⟩
  | .local _ .vmem, ⟨3, _⟩ => ⟨S64x128, .i32⟩
  | .local _ .vmem, ⟨4, _⟩ => ⟨S8x128, .f32⟩
  | .local _ .vmem, ⟨5, _⟩ => ⟨S8x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S262144x128_S2048x128x128 : S262144x128.ShapeCasts S2048x128x128
  shapeCasts_S262144_S2048x128 : S262144.ShapeCasts S2048x128
  inb_S8x128_S8x128_0_0 : ∀ a, (![0, 0] : Fin 2 → Nat) a + S8x128.size a ≤ S8x128.size a
  h_S8x128 : 0 < S8x128.numel
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x128x128_d2_w32 : S64x128x128.Iotas .tc 32 [2]
  shapeCasts_S64x128_S64x128x1 : S64x128.ShapeCasts S64x128x1
  broadcasts_S64x128x1_S64x128x128 : S64x128x1.Broadcasts S64x128x128
  reduces_S64x128x128_S64x128 : S64x128x128.Reduces [2] S64x128
  reduces_S64x128x1_S64x1 : S64x128x1.Reduces [1] S64x1
  shapeCasts_S64x1_S64x1x1 : S64x1.ShapeCasts S64x1x1
  reduces_S64x1x1_S1x1 : S64x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S2048x128x128.size a
  hwx0_0 : ∀ i : grid0.Coords, EltTy.bits .f32 = 32 ∨ (Rect.block (s := S2048x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S2048x128.size a
  hwx0_1 : ∀ i : grid0.Coords, EltTy.bits .i32 = 32 ∨ (Rect.block (s := S2048x128) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S262144x1 : Shape := ⟨2, ![262144, 1]⟩
abbrev S_ : Shape := ⟨0, ![]⟩
abbrev S262144x1x1 : Shape := ⟨3, ![262144, 1, 1]⟩
abbrev S1 : Shape := ⟨1, ![1]⟩
abbrev S1x1x1 : Shape := ⟨3, ![1, 1, 1]⟩
abbrev S128 : Shape := ⟨1, ![128]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S262144x1, .i32⟩
  | .hbm, ⟨3, _⟩ => ⟨S_, .i32⟩
  | .hbm, ⟨4, _⟩ => ⟨S262144x1, .i32⟩
  | .hbm, ⟨5, _⟩ => ⟨S262144x1, .i1⟩
  | .hbm, ⟨6, _⟩ => ⟨S_, .i32⟩
  | .hbm, ⟨7, _⟩ => ⟨S262144x1, .i32⟩
  | .hbm, ⟨8, _⟩ => ⟨S262144x1, .i32⟩
  | .hbm, ⟨9, _⟩ => ⟨S262144x1, .i32⟩
  | .hbm, ⟨10, _⟩ => ⟨S262144x1x1, .i32⟩
  | .hbm, ⟨11, _⟩ => ⟨S1, .i32⟩
  | .hbm, ⟨12, _⟩ => ⟨S_, .i32⟩
  | .hbm, ⟨13, _⟩ => ⟨S262144x1x1, .i32⟩
  | .hbm, ⟨14, _⟩ => ⟨S262144x1x1, .i1⟩
  | .hbm, ⟨15, _⟩ => ⟨S1x1x1, .i32⟩
  | .hbm, ⟨16, _⟩ => ⟨S262144x1x1, .i32⟩
  | .hbm, ⟨17, _⟩ => ⟨S262144x1x1, .i1⟩
  | .hbm, ⟨18, _⟩ => ⟨S262144x1x1, .i1⟩
  | .hbm, ⟨19, _⟩ => ⟨S_, .i1⟩
  | .hbm, ⟨20, _⟩ => ⟨S262144x1, .i1⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S_, .f32⟩
  | .hbm, ⟨26, _⟩ => ⟨S262144x1, .f32⟩
  | .hbm, ⟨27, _⟩ => ⟨S262144x1, .f32⟩
  | .hbm, ⟨28, _⟩ => ⟨S262144x128, .f32⟩
  | .hbm, ⟨29, _⟩ => ⟨S262144x128, .f32⟩
  | .hbm, ⟨30, _⟩ => ⟨S_, .f32⟩
  | .hbm, ⟨31, _⟩ => ⟨S262144x128, .f32⟩
  | .hbm, ⟨32, _⟩ => ⟨S262144x128, .f32⟩
  | .hbm, ⟨33, _⟩ => ⟨S128, .i32⟩
  | .hbm, ⟨34, _⟩ => ⟨S1x128, .i32⟩
  | .hbm, ⟨35, _⟩ => ⟨S262144x1, .i32⟩
  | .hbm, ⟨36, _⟩ => ⟨S262144x128, .i32⟩
  | .hbm, ⟨37, _⟩ => ⟨S262144x128, .i32⟩
  | .hbm, ⟨38, _⟩ => ⟨S262144x128, .i1⟩
  | .hbm, ⟨39, _⟩ => ⟨S_, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S_d0_1 : S262144x128.ReducesTo [0, 1] S_
  gather_S262144x128_S262144x1x1_S262144x1_n_1_0_0_1_2_11_wf : GatherDims.WF S262144x128 S262144x1x1 S262144x1 [] [1] [0] [1] [0] 2 ![1, 1]

variable [Facts₀]

def gather_S262144x128_S262144x1x1_S262144x1_n_1_0_0_1_2_11 : GatherDims S262144x128 S262144x1x1 S262144x1 where
  offsetDims := []
  collapsedSliceDims := [1]
  operandBatchingDims := [0]
  startIndicesBatchingDims := [0]
  startIndexMap := [1]
  indexVectorDim := 2
  sliceSizes := ![1, 1]
  wf := gather_S262144x128_S262144x1x1_S262144x1_n_1_0_0_1_2_11_wf

class Facts : Prop extends Facts₀ where

variable [Facts]
-- ==== Proof.Spec.lean ====
/-
  The mathematics both programs compute, stated once over the argument arrays.

  The scores `x` are 262144 rows of 128 columns and `lab` gives each row a column.  For a row `n` write
  `c n` for the score in its label's column.  Every entry contributes the hinge
  `max ((margin - c n) + x n j) 0`, and the loss is the sum of the hinges over all columns other than the
  label's, divided by a constant.

  The kernel walks the rows in 32 tiles of 8192 rows (64 groups of 128).  In a tile it finds `c n` as a
  one-hot sum along the row, adds up the hinges of ALL 128 columns, and takes the tile's constant
  `tileMargin` off afterwards: in the label's own column the hinge is `max ((margin - c) + c) 0 = margin`
  when `c` is a real number, and 8192 rows each contribute one such term.  A tile's corrected sum, divided by
  1024, is added to every one of the 1024 entries of an 8 x 128 block; tiles 0 to 15 feed the first block and
  tiles 16 to 31 the second, each block starting from zero.  Summing the 2048 entries gives back the sum of
  the corrected tile sums.
-/
import Idealize.ShloMosaic.PureOps.Ideal
import Idealize.ShloMosaic.Lib.ValueIdx

noncomputable section

namespace Cert.MarginLoss

open Idealize.ShloMosaic Idealize.ShloMosaic.ValueIdx

/-- The scores' shape, the labels' and the shape of the array of partial sums. -/
abbrev SX : Shape := ⟨2, ![262144, 128]⟩
abbrev SL : Shape := ⟨1, ![262144]⟩
abbrev SO : Shape := ⟨2, ![16, 128]⟩
/-- One tile of scores, one tile of labels, one block of partial sums. -/
abbrev TX : Shape := ⟨3, ![64, 128, 128]⟩
abbrev TL : Shape := ⟨2, ![64, 128]⟩
abbrev TO : Shape := ⟨2, ![8, 128]⟩

/-- The margin, as the binary value both programs carry. -/
abbrev margin : EReal := Ideal.ofBits .f32 0x3DCCCCCD#32
/-- What the kernel takes off a tile's sum: 8192 margins. -/
abbrev tileMargin : EReal := Ideal.ofBits .f32 0x444CCCCD#32
/-- The number of entries of a block of partial sums, 1024. -/
abbrev blockCount : EReal := Ideal.ofBits .f32 0x44800000#32

/-! ## One tile -/

section Tile
variable (x3 : FVec Ideal TX .f32) (l2 : IVec TL 32)

/-- The score in the label's column of row `(g, r)` of a tile, as the one-hot sum along the row. -/
def tilePick (g : Fin 64) (r : Fin 128) : EReal :=
  ∑ j : Fin 128, if BitVec.ofNat 32 j.val = l2 (ix2 g r) then x3 (ix3 g r j) else 0

/-- The sum of the hinges over every entry of a tile, the label's column included. -/
def tileTotal : EReal :=
  ∑ g : Fin 64, ∑ r : Fin 128, ∑ j : Fin 128, max ((margin - tilePick x3 l2 g r) + x3 (ix3 g r j)) 0

/-- What a tile adds to each entry of its block of partial sums. -/
def tileUpdate : EReal := Ideal.div (tileTotal x3 l2 - tileMargin) blockCount

end Tile

/-! ## The whole arrays -/

variable (x : FVec Ideal SX .f32) (lab : IVec SL 32)

/-- The row of the scores at position `(g, r)` of tile `t`. -/
def row (t : ℕ) (g : Fin 64) (r : Fin 128) : Fin 262144 :=
  ⟨((t % 32) * 64 + g.val) * 128 + r.val, by have := g.isLt; have := r.isLt; have := Nat.mod_lt t (show 0 < 32 by decide); omega⟩

/-- Tile `t` of the scores and of the labels. -/
def tileX (t : ℕ) : FVec Ideal TX .f32 := fun y =>
  x (ix2 (row t ⟨(y 0).val, (y 0).isLt⟩ ⟨(y 1).val, (y 1).isLt⟩) ⟨(y 2).val, (y 2).isLt⟩)
def tileL (t : ℕ) : IVec TL 32 := fun y => lab (ix1 (row t ⟨(y 0).val, (y 0).isLt⟩ ⟨(y 1).val, (y 1).isLt⟩))

/-- What tile `t` adds to each entry of its block. -/
def update (t : ℕ) : EReal := tileUpdate (tileX x t) (tileL lab t)

/-- Every entry of the block of partial sums being filled, after tile `n`: a block starts again from zero at
    tiles 0 and 16. -/
def accum : ℕ → EReal
  | 0 => 0 + update x lab 0
  | n + 1 => if (n + 1) % 16 = 0 then 0 + update x lab (n + 1) else accum n + update x lab (n + 1)

/-- The array of partial sums the kernel leaves: rows 0 to 7 hold the first block after tile 15, rows 8 to 15
    the second after tile 31. -/
def outArr : FVec Ideal SO .f32 := fun y => accum x lab (16 * ((y 0).val / 8) + 15)

/-- The label's column of row `n`, as a gather reads it: the label as a signed number, clamped into the row. -/
def labCol (n : Fin 262144) : Fin 128 := ⟨min (lab (ix1 n)).toInt.toNat 127, by omega⟩

/-- The reference's summand at `(n, j)`: nothing in the label's column, the hinge elsewhere. -/
def maskedAt (n : Fin 262144) (j : Fin 128) : EReal :=
  if BitVec.ofNat 32 j.val = lab (ix1 n) then 0 else max ((margin - x (ix2 n (labCol lab n))) + x (ix2 n j)) 0

/-- The array the reference sums. -/
def masked : FVec Ideal SX .f32 := fun i => maskedAt x lab ⟨(i 0).val, idx2_lt0 i⟩ ⟨(i 1).val, idx2_lt1 i⟩

end Cert.MarginLoss

end
-- ==== Proof.Algebra.lean ====
/-
  The sum identity behind the kernel's rearrangement, over the extended reals.

  With every score a real number and every label a column of its row, the 2048 entries of the kernel's array
  of partial sums add up to the reference's masked sum over all rows and columns.
-/
import proofs.«417837_j45518063403453_2_alg».proof.Proof.Spec

noncomputable section

namespace Cert.MarginLoss

open Idealize.ShloMosaic Idealize.ShloMosaic.ValueIdx

namespace Alg

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max (a b : ℝ) : ((max a b : ℝ) : EReal) = max (a : EReal) (b : EReal) :=
  EReal.coe_strictMono.monotone.map_max

/-- The margin's word denotes 13421773 / 2^27. -/
theorem margin_eq : margin = ((13421773 / 134217728 : ℝ) : EReal) := by
  simp [Ideal.ofBits, Ideal.ieee, -EReal.coe_mul]; norm_num

/-- The tile constant's word denotes 13421773 / 2^14, which is 8192 margins. -/
theorem tileMargin_eq : tileMargin = ((13421773 / 16384 : ℝ) : EReal) := by
  simp [Ideal.ofBits, Ideal.ieee, -EReal.coe_mul]; norm_num

/-- The block count's word denotes 1024. -/
theorem blockCount_eq : blockCount = ((1024 : ℝ) : EReal) := by
  simp [Ideal.ofBits, Ideal.ieee, -EReal.coe_mul]; norm_num

/-- Against a label word below 128, the word of a column `j` equals the label exactly when `j` is the label's
    column: words below 2^32 are told apart by their values. -/
theorem word_eq_iff (w : BitVec 32) (hw : w.toNat < 128) (j : Fin 128) :
    BitVec.ofNat 32 j.val = w ↔ j = ⟨w.toNat, hw⟩ := by
  constructor
  · intro h
    apply Fin.ext
    have := congrArg BitVec.toNat h
    rw [BitVec.toNat_ofNat, Nat.mod_eq_of_lt (by have := j.isLt; omega)] at this
    exact this
  · intro h
    apply BitVec.eq_of_toNat_eq
    rw [BitVec.toNat_ofNat, h]
    exact Nat.mod_eq_of_lt (by omega)

/-- A label word below 128 read as a signed number and clamped into the row is the label's own value. -/
theorem labCol_eq (lab : IVec SL 32) (n : Fin 262144) (hw : (lab (ix1 n)).toNat < 128) :
    labCol lab n = ⟨(lab (ix1 n)).toNat, hw⟩ := by
  apply Fin.ext
  show min (lab (ix1 n)).toInt.toNat 127 = (lab (ix1 n)).toNat
  rw [BitVec.toInt_eq_toNat_of_lt (by omega), Int.toNat_natCast]
  omega

section Main
variable (x : FVec Ideal SX .f32) (lab : IVec SL 32) (xr : SX.Idx → ℝ) (ℓ : Fin 262144 → Fin 128)

/-- The hinge of entry `(n, j)` over the reals. -/
def hinge (n : Fin 262144) (j : Fin 128) : ℝ :=
  max ((13421773 / 134217728 - xr (ix2 n (ℓ n))) + xr (ix2 n j)) 0

/-- A row's sum of hinges with the label's own column left out. -/
def rowMasked (n : Fin 262144) : ℝ := ∑ j : Fin 128, if j = ℓ n then 0 else hinge xr ℓ n j

/-- A tile's sum of the rows' masked sums. -/
def tileMasked (t : ℕ) : ℝ := ∑ g : Fin 64, ∑ r : Fin 128, rowMasked xr ℓ (row t g r)

/-- In the label's own column the hinge is the margin, so all 128 hinges of a row add up to the masked sum plus
    one margin. -/
theorem hinge_sum (n : Fin 262144) :
    ∑ j : Fin 128, hinge xr ℓ n j = rowMasked xr ℓ n + 13421773 / 134217728 := by
  have hl : hinge xr ℓ n (ℓ n) = 13421773 / 134217728 := by
    unfold hinge
    rw [sub_add_cancel]
    exact max_eq_left (by norm_num)
  have h : ∀ j : Fin 128, hinge xr ℓ n j
      = (if j = ℓ n then 0 else hinge xr ℓ n j) + (if j = ℓ n then (13421773 / 134217728 : ℝ) else 0) := by
    intro j
    by_cases e : j = ℓ n
    · rw [if_pos e, if_pos e, e, hl, zero_add]
    · rw [if_neg e, if_neg e, add_zero]
  rw [Finset.sum_congr rfl (fun j _ => h j), Finset.sum_add_distrib, Finset.sum_ite_eq' Finset.univ (ℓ n),
    if_pos (Finset.mem_univ _)]
  rfl

variable (hx : ∀ i, x i = ((xr i : ℝ) : EReal))
  (hℓ : ∀ (n : Fin 262144) (j : Fin 128), BitVec.ofNat 32 j.val = lab (ix1 n) ↔ j = ℓ n)
  (hcol : ∀ n : Fin 262144, labCol lab n = ℓ n)
include hx hℓ

/-- The one-hot sum along a row of a tile picks the score in the label's column. -/
theorem tilePick_eq (t : ℕ) (g : Fin 64) (r : Fin 128) :
    tilePick (tileX x t) (tileL lab t) g r = ((xr (ix2 (row t g r) (ℓ (row t g r))) : ℝ) : EReal) := by
  unfold tilePick
  have h : ∀ j : Fin 128,
      (if BitVec.ofNat 32 j.val = tileL lab t (ix2 g r) then tileX x t (ix3 g r j) else 0)
        = if j = ℓ (row t g r) then ((xr (ix2 (row t g r) j) : ℝ) : EReal) else 0 := by
    intro j
    show (if BitVec.ofNat 32 j.val = lab (ix1 (row t g r)) then x (ix2 (row t g r) j) else 0) = _
    by_cases e : j = ℓ (row t g r)
    · rw [if_pos e, if_pos ((hℓ _ _).mpr e), hx]
    · rw [if_neg e, if_neg (fun e' => e ((hℓ _ _).mp e'))]
  rw [Finset.sum_congr rfl (fun j _ => h j), Finset.sum_ite_eq' Finset.univ (ℓ (row t g r)),
    if_pos (Finset.mem_univ _)]

/-- A tile's sum of all hinges is the coercion of the same sum over the reals. -/
theorem tileTotal_eq (t : ℕ) :
    tileTotal (tileX x t) (tileL lab t)
      = ((∑ g : Fin 64, ∑ r : Fin 128, ∑ j : Fin 128, hinge xr ℓ (row t g r) j : ℝ) : EReal) := by
  unfold tileTotal
  rw [coe_sum]
  refine Finset.sum_congr rfl fun g _ => ?_
  rw [coe_sum]
  refine Finset.sum_congr rfl fun r _ => ?_
  rw [coe_sum]
  refine Finset.sum_congr rfl fun j _ => ?_
  rw [tilePick_eq x lab xr ℓ hx hℓ]
  show max ((margin - _) + x (ix2 (row t g r) j)) 0 = _
  rw [hx, margin_eq, ← EReal.coe_sub, ← EReal.coe_add, ← EReal.coe_zero, ← coe_max]
  rfl

/-- With the 8192 margins taken off, a tile contributes its masked sum divided by 1024. -/
theorem update_eq (t : ℕ) : update x lab t = ((tileMasked xr ℓ t / 1024 : ℝ) : EReal) := by
  have hr : (∑ g : Fin 64, ∑ r : Fin 128, ∑ j : Fin 128, hinge xr ℓ (row t g r) j : ℝ)
      = tileMasked xr ℓ t + 13421773 / 16384 := by
    unfold tileMasked
    simp only [hinge_sum, Finset.sum_add_distrib, Finset.sum_const, Finset.card_univ, Fintype.card_fin,
      nsmul_eq_mul]
    norm_num
  unfold update tileUpdate
  rw [tileTotal_eq x lab xr ℓ hx hℓ, hr, tileMargin_eq, blockCount_eq, Ideal.div_coe (by norm_num),
    ← EReal.coe_sub, ← EReal.coe_mul]
  congr 1
  ring

end Main

section Main2
variable (x : FVec Ideal SX .f32) (lab : IVec SL 32) (xr : SX.Idx → ℝ) (ℓ : Fin 262144 → Fin 128)
  (hx : ∀ i, x i = ((xr i : ℝ) : EReal))
  (hℓ : ∀ (n : Fin 262144) (j : Fin 128), BitVec.ofNat 32 j.val = lab (ix1 n) ↔ j = ℓ n)
  (hcol : ∀ n : Fin 262144, labCol lab n = ℓ n)

include hx hℓ hcol in
/-- The reference's summand is the coercion of the real masked hinge. -/
theorem maskedAt_eq (n : Fin 262144) (j : Fin 128) :
    maskedAt x lab n j = (((if j = ℓ n then 0 else hinge xr ℓ n j) : ℝ) : EReal) := by
  unfold maskedAt
  by_cases e : j = ℓ n
  · rw [if_pos e, if_pos ((hℓ _ _).mpr e), EReal.coe_zero]
  · rw [if_neg e, if_neg (fun e' => e ((hℓ _ _).mp e')), hcol, hx, hx, margin_eq, ← EReal.coe_sub,
      ← EReal.coe_add, ← EReal.coe_zero, ← coe_max]
    rfl

/-- The recurrence of the block being filled, over the reals, for any sequence of updates. -/
def accumR (u : ℕ → ℝ) : ℕ → ℝ
  | 0 => 0 + u 0
  | n + 1 => if (n + 1) % 16 = 0 then 0 + u (n + 1) else accumR u n + u (n + 1)

include hx hℓ in
/-- The block being filled holds the coercion of the real recurrence's value. -/
theorem accum_eq (n : ℕ) :
    accum x lab n = ((accumR (fun t => tileMasked xr ℓ t / 1024) n : ℝ) : EReal) := by
  induction n with
  | zero =>
    rw [accum, accumR, update_eq x lab xr ℓ hx hℓ, ← EReal.coe_zero, ← EReal.coe_add]
  | succ n ih =>
    rw [accum, accumR]
    by_cases e : (n + 1) % 16 = 0
    · rw [if_pos e, if_pos e, update_eq x lab xr ℓ hx hℓ, ← EReal.coe_zero, ← EReal.coe_add]
    · rw [if_neg e, if_neg e, ih, update_eq x lab xr ℓ hx hℓ, ← EReal.coe_add]

/-- The first block holds the sum of updates 0 to 15, the second the sum of updates 16 to 31. -/
theorem accumR_15 (u : ℕ → ℝ) : accumR u 15 = ∑ i ∈ Finset.range 16, u i := by
  simp [accumR, Finset.sum_range_succ]

/-- The second block starts again from zero at update 16. -/
theorem accumR_31 (u : ℕ → ℝ) : accumR u 31 = ∑ i ∈ Finset.range 16, u (16 + i) := by
  simp [accumR, Finset.sum_range_succ]

end Main2

/-- Tiles, groups and rows of a group enumerate every row exactly once, in row-major order. -/
def rowEquiv : (Fin 32 × Fin 64) × Fin 128 ≃ Fin 262144 :=
  ((finProdFinEquiv (m := 32) (n := 64)).prodCongr (Equiv.refl (Fin 128))).trans
    (finProdFinEquiv (m := 32 * 64) (n := 128))

theorem rowEquiv_apply (t : Fin 32) (g : Fin 64) (r : Fin 128) :
    rowEquiv ((t, g), r) = row t.val g r := by
  apply Fin.ext
  show r.val + 128 * (g.val + 64 * t.val) = ((t.val % 32) * 64 + g.val) * 128 + r.val
  have := t.isLt
  omega

/-- A sum over all rows is the sum over the tiles of the sums over a tile's rows. -/
theorem sum_rows (F : Fin 262144 → ℝ) :
    ∑ n : Fin 262144, F n = ∑ t ∈ Finset.range 32, ∑ g : Fin 64, ∑ r : Fin 128, F (row t g r) := by
  rw [← Equiv.sum_comp rowEquiv F, Fintype.sum_prod_type, Fintype.sum_prod_type,
    ← Fin.sum_univ_eq_sum_range (fun t => ∑ g : Fin 64, ∑ r : Fin 128, F (row t g r)) 32]
  refine Finset.sum_congr rfl fun t _ => Finset.sum_congr rfl fun g _ => Finset.sum_congr rfl fun r _ => ?_
  rw [rowEquiv_apply]

/-- The 16 x 128 entries: eight rows of 128 hold the first block's value and eight the second's, so together
    they hold 1024 times the sum of all 32 updates. -/
theorem blocks_sum (u : ℕ → ℝ) :
    ∑ a : Fin 16, ∑ _b : Fin 128, accumR u (16 * (a.val / 8) + 15) = 1024 * ∑ t ∈ Finset.range 32, u t := by
  rw [Fin.sum_univ_eq_sum_range (fun a => ∑ _b : Fin 128, accumR u (16 * (a / 8) + 15)) 16]
  simp only [Finset.sum_const, Finset.card_univ, Fintype.card_fin, nsmul_eq_mul]
  simp [Finset.sum_range_succ, accumR_15, accumR_31]
  ring

end Alg

theorem total_eq (x : FVec Ideal SX .f32) (lab : IVec SL 32)
    (hfin : ∀ i, ∃ r : ℝ, x i = (r : EReal)) (hlab : ∀ n : Fin 262144, (lab (ix1 n)).toNat < 128) :
    ∑ y : SO.Idx, outArr x lab y = ∑ i : SX.Idx, masked x lab i := by
  choose xr hx using hfin
  let ℓ : Fin 262144 → Fin 128 := fun n => ⟨(lab (ix1 n)).toNat, hlab n⟩
  have hℓ : ∀ (n : Fin 262144) (j : Fin 128), BitVec.ofNat 32 j.val = lab (ix1 n) ↔ j = ℓ n :=
    fun n j => Alg.word_eq_iff _ (hlab n) j
  have hcol : ∀ n : Fin 262144, labCol lab n = ℓ n := fun n => Alg.labCol_eq lab n (hlab n)
  have hL : ∀ (a : Fin 16) (b : Fin 128), outArr x lab (ix2 a b)
      = ((Alg.accumR (fun t => Alg.tileMasked xr ℓ t / 1024) (16 * (a.val / 8) + 15) : ℝ) : EReal) :=
    fun a _ => Alg.accum_eq x lab xr ℓ hx hℓ _
  have hR : ∀ (n : Fin 262144) (j : Fin 128), masked x lab (ix2 n j)
      = (((if j = ℓ n then 0 else Alg.hinge xr ℓ n j) : ℝ) : EReal) :=
    fun n j => Alg.maskedAt_eq x lab xr ℓ hx hℓ hcol n j
  rw [sum_idx2 (outArr x lab), sum_idx2 (masked x lab)]
  simp only [hL, hR, ← Alg.coe_sum]
  refine congrArg Real.toEReal ?_
  rw [Alg.blocks_sum]
  show _ = ∑ n : Fin 262144, Alg.rowMasked xr ℓ n
  rw [Alg.sum_rows (Alg.rowMasked xr ℓ)]
  show 1024 * ∑ t ∈ Finset.range 32, Alg.tileMasked xr ℓ t / 1024 = ∑ t ∈ Finset.range 32, Alg.tileMasked xr ℓ t
  rw [← Finset.sum_div]
  ring

end Cert.MarginLoss

end
-- ==== Proof.PreDecode.lean ====
/-
  What the precondition says of the argument arrays: every score is a real number, and every label, read as
  a signed number, lies in 0 .. 127.
-/
import proofs.«417837_j45518063403453_2_alg».proof.Pre_finite_inputs
import proofs.«417837_j45518063403453_2_alg».proof.Proof.Gen.Pre_finite_inputs
import proofs.«417837_j45518063403453_2_alg».proof.Proof.Spec
import Idealize.ShloMosaic.Lib.ReduceAll
import Idealize.ShloMosaic.Lib.StableHlo.Predicate

noncomputable section

namespace Cert.MarginLoss

open Idealize.ShloMosaic Idealize.ShloMosaic.ValueIdx

/-- The word the scores' absolute values are compared with is plus infinity. -/
private theorem inf_word : Ideal.ofBits .f32 0x7F800000#32 = (⊤ : EReal) := by simp [Ideal.ofBits, Ideal.ieee]

/-- An extended real whose absolute value lies below plus infinity is a real number: minus infinity has
    absolute value plus infinity, and plus infinity is its own. -/
private theorem real_of_abs_lt_top (a : EReal) (h : Ideal.cmp .olt (max a (-a)) (⊤ : EReal) = 1#1) : ∃ r : ℝ, a = (r : EReal) := by
  unfold Ideal.cmp at h
  rw [StableHlo.Predicate.ofBool_eq_one_iff, decide_eq_true_eq] at h
  induction a using EReal.rec with
  | bot => simp at h
  | coe r => exact ⟨r, rfl⟩
  | top => simp at h

/-- A word that is at least 0 and below 128 as a signed number is below 128 as an unsigned one: a word
    that is nonnegative as a signed number reads the same both ways. -/
private theorem word_lt_of_signed_range (w : BitVec 32)
    (h : IntOp.andi (IntOp.cmpi .sge w 0#32) (IntOp.cmpi .slt w 128#32) = 1#1) : w.toNat < 128 := by
  obtain ⟨h1, h2⟩ := IntOp.andi_eq_one.1 h
  rw [IntOp.cmpi_sge, show (0#32 : BitVec 32).toInt = 0 from by decide] at h1
  rw [IntOp.cmpi_slt, show (128#32 : BitVec 32).toInt = 128 from by decide] at h2
  have hw := w.isLt
  rw [BitVec.toInt_eq_toNat_cond] at h1 h2
  split_ifs at h1 h2 with hc <;> omega

theorem pre_decode (x : FVec Ideal SX .f32) (lab : IVec SL 32)
    (h : Cert.Pre_finite_inputs.fn (F := Ideal) x lab = fun _ => 1#1) :
    (∀ i, ∃ r : ℝ, x i = (r : EReal)) ∧ (∀ n : Fin 262144, (lab (ix1 n)).toNat < 128) := by
  -- the shape of a scalar has one index
  haveI : Subsingleton Cert.Pre_finite_inputs.S_.Idx := ⟨fun a b => funext fun d => d.elim0⟩
  have h0 := congrFun h ValueIdx.ix0
  dsimp only [Cert.Pre_finite_inputs.fn] at h0
  obtain ⟨hx, hl⟩ := IntOp.andi_eq_one.1 h0
  refine ⟨fun i => ?_, fun n => ?_⟩
  · -- the conjunction over all scores, read at `i`: the absolute value of `x i` lies below the broadcast word
    have e := Host.reduce_andi_all _ _ _ _ _ hx i
    have hb := StableHlo.Predicate.bcast_scalar Cert.Pre_finite_inputs.Facts.bcast_S_S262144x128
      Cert.Pre_finite_inputs.Facts.h_S_ (constant (F := Ideal) Cert.Pre_finite_inputs.S_ .f32 0x7F800000#32) i
    change Ideal.cmp .olt (max (x i) (-x i))
      (broadcastInDim Cert.Pre_finite_inputs.S262144x128 ![] Cert.Pre_finite_inputs.Facts.bcast_S_S262144x128
        (constant (F := Ideal) Cert.Pre_finite_inputs.S_ .f32 0x7F800000#32) i) = 1#1 at e
    rw [hb] at e
    apply real_of_abs_lt_top
    rw [← inf_word]
    exact e
  · -- the conjunction over all labels, read at `n`: the label is compared with the broadcast words 0 and 128
    have e := Host.reduce_andi_all _ _ _ _ _ hl (ix1 n)
    have hb0 := StableHlo.Predicate.bcast_scalar Cert.Pre_finite_inputs.Facts.bcast_S_S262144
      Cert.Pre_finite_inputs.Facts.h_S_ (constantI Cert.Pre_finite_inputs.S_ 32 0#32) (ix1 n)
    have hb1 := StableHlo.Predicate.bcast_scalar Cert.Pre_finite_inputs.Facts.bcast_S_S262144
      Cert.Pre_finite_inputs.Facts.h_S_ (constantI Cert.Pre_finite_inputs.S_ 32 128#32) (ix1 n)
    change IntOp.andi
      (IntOp.cmpi .sge (lab (ix1 n)) (broadcastInDim Cert.Pre_finite_inputs.S262144 ![]
        Cert.Pre_finite_inputs.Facts.bcast_S_S262144 (constantI Cert.Pre_finite_inputs.S_ 32 0#32) (ix1 n)))
      (IntOp.cmpi .slt (lab (ix1 n)) (broadcastInDim Cert.Pre_finite_inputs.S262144 ![]
        Cert.Pre_finite_inputs.Facts.bcast_S_S262144 (constantI Cert.Pre_finite_inputs.S_ 32 128#32) (ix1 n))) = 1#1 at e
    rw [hb0, hb1] at e
    exact word_lt_of_signed_range _ e

end Cert.MarginLoss

end
-- ==== Proof.KernelPayload.lean ====
/-
  What the kernel's body computes from one tile, entry by entry of its block of partial sums.
-/
import proofs.«417837_j45518063403453_2_alg».proof.Proof.Gen.KernelIdeal.Skeleton
import proofs.«417837_j45518063403453_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.MarginLoss

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Layout

section Sums

/-- A sum over the last axis of a `[a, b, c]` array, read at `(i, j)`: the sum over `k` of the entries `(i, j, k)`. -/
theorem reduce_axis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- A sum over the middle axis of a `[a, b, 1]` array, read at `(i, u)`: the sum over `j` of the entries `(i, j, 0)`. -/
theorem reduce_axis1_apply {a b : ℕ} (src : FVec Ideal ⟨3, ![a, b, 1]⟩ .f32)
    (h : (⟨3, ![a, b, 1]⟩ : Shape).Reduces [1] ⟨2, ![a, 1]⟩) (hφ : FKind.Formats .f32)
    (hacc : (0x00000000#32 : BitVec 32) = FKind.add.neutral .f32 hφ) (i : Fin a) (u : Fin 1) :
    multiReduction .add [1] ⟨2, ![a, 1]⟩ src 0x00000000#32 h hφ hacc (ix2 i u) = ∑ j : Fin b, src (ix3 i j (0 : Fin 1)) := by
  refine (Ideal.multiReduction_add_single src 0x00000000#32 h hφ hacc (ix2 i u)).trans ?_
  refine Finset.sum_congr rfl fun k _ => congrArg src (funext fun ax => Fin.ext ?_)
  match ax with
  | ⟨0, _⟩ => rfl
  | ⟨1, _⟩ => rfl
  | ⟨2, _⟩ => show u.val = 0; omega

/-- A sum over the first axis of a `[a, 1, 1]` array, read at its one index: the sum over `i` of the entries `(i, 0, 0)`. -/
theorem reduce_axis0_apply {a : ℕ} (src : FVec Ideal ⟨3, ![a, 1, 1]⟩ .f32)
    (h : (⟨3, ![a, 1, 1]⟩ : Shape).Reduces [0] ⟨2, ![1, 1]⟩) (hφ : FKind.Formats .f32)
    (hacc : (0x00000000#32 : BitVec 32) = FKind.add.neutral .f32 hφ) (u w : Fin 1) :
    multiReduction .add [0] ⟨2, ![1, 1]⟩ src 0x00000000#32 h hφ hacc (ix2 u w) = ∑ i : Fin a, src (ix3 i (0 : Fin 1) (0 : Fin 1)) := by
  refine (Ideal.multiReduction_add_single src 0x00000000#32 h hφ hacc (ix2 u w)).trans ?_
  refine Finset.sum_congr rfl fun k _ => congrArg src (funext fun ax => Fin.ext ?_)
  match ax with
  | ⟨0, _⟩ => rfl
  | ⟨1, _⟩ => show u.val = 0; omega
  | ⟨2, _⟩ => show w.val = 0; omega

end Sums

section Tile

/-- The one-hot sum along a row: the lane sum of the entries kept where the column's number is the row's label. -/
theorem pick_apply (x : FVec Ideal ⟨3, ![64, 128, 128]⟩ .f32) (l : IVec ⟨2, ![64, 128]⟩ 32)
    (hi : (⟨3, ![64, 128, 128]⟩ : Shape).Iotas .tc 32 [2])
    (hc : (⟨2, ![64, 128]⟩ : Shape).ShapeCasts ⟨3, ![64, 128, 1]⟩)
    (hb : (⟨3, ![64, 128, 1]⟩ : Shape).Broadcasts ⟨3, ![64, 128, 128]⟩)
    (hr : (⟨3, ![64, 128, 128]⟩ : Shape).Reduces [2] ⟨2, ![64, 128]⟩) (hφ : FKind.Formats .f32)
    (hacc : (0x00000000#32 : BitVec 32) = FKind.add.neutral .f32 hφ) (g : Fin 64) (r : Fin 128) :
    multiReduction .add [2] ⟨2, ![64, 128]⟩
        (select (cmpi .eq (iota .tc ⟨3, ![64, 128, 128]⟩ 32 [2] hi)
            (broadcastTo ⟨3, ![64, 128, 128]⟩ (shapeCast ⟨3, ![64, 128, 1]⟩ l hc) hb))
          x (broadcast ⟨3, ![64, 128, 128]⟩ (Scalar.ofBits (F := Ideal) .f32 0x00000000#32)))
        0x00000000#32 hr hφ hacc (ix2 g r)
      = tilePick x l g r := by
  rw [reduce_axis2_apply]
  unfold tilePick
  refine Finset.sum_congr rfl fun j _ => ?_
  rw [select_apply, broadcast_apply]
  show Scalar.select (IntOp.cmpi .eq (iota .tc ⟨3, ![64, 128, 128]⟩ 32 [2] hi (ix3 g r j))
      (broadcastTo ⟨3, ![64, 128, 128]⟩ (shapeCast ⟨3, ![64, 128, 1]⟩ l hc) hb (ix3 g r j)))
    (x (ix3 g r j)) (Ideal.ofBits .f32 0x00000000#32) = _
  rw [broadcastTo_ab1_abc_apply, shapeCast_ab_ab1_apply, iota_single_apply, Ideal.ofBits_zero_f32]
  show (if IntOp.cmpi .eq (BitVec.ofNat 32 j.val) (l (ix2 g r)) = 1#1 then x (ix3 g r j) else 0) = _
  by_cases hj : BitVec.ofNat 32 j.val = l (ix2 g r)
  · rw [if_pos hj, if_pos]
    simp only [IntOp.cmpi, hj, beq_self_eq_true]; rfl
  · rw [if_neg hj, if_neg]
    intro h1
    apply hj
    simp only [IntOp.cmpi] at h1
    by_contra hne
    rw [beq_eq_false_iff_ne.mpr hne] at h1
    exact absurd h1 (by decide)

/-- The hinge of one entry: the margin less the row's picked score, plus the entry, cut off below at zero. -/
theorem hinge_apply (x : FVec Ideal ⟨3, ![64, 128, 128]⟩ .f32) (c : FVec Ideal ⟨2, ![64, 128]⟩ .f32)
    (hc : (⟨2, ![64, 128]⟩ : Shape).ShapeCasts ⟨3, ![64, 128, 1]⟩)
    (hb : (⟨3, ![64, 128, 1]⟩ : Shape).Broadcasts ⟨3, ![64, 128, 128]⟩) (g : Fin 64) (r j : Fin 128) :
    maximumf (addf (broadcastTo ⟨3, ![64, 128, 128]⟩
          (subf (broadcast ⟨3, ![64, 128, 1]⟩ (Scalar.ofBits (F := Ideal) .f32 0x3DCCCCCD#32))
            (shapeCast ⟨3, ![64, 128, 1]⟩ c hc)) hb) x)
        (broadcast ⟨3, ![64, 128, 128]⟩ (Scalar.ofBits (F := Ideal) .f32 0x00000000#32)) (ix3 g r j)
      = max ((margin - c (ix2 g r)) + x (ix3 g r j)) 0 := by
  rw [maximumf_apply, addf_apply, broadcastTo_ab1_abc_apply, subf_apply, shapeCast_ab_ab1_apply, broadcast_apply,
    broadcast_apply]
  show max ((Ideal.ofBits .f32 0x3DCCCCCD#32 - c (ix2 g r)) + x (ix3 g r j)) (Ideal.ofBits .f32 0x00000000#32) = _
  rw [Ideal.ofBits_zero_f32]

/-- The three sums in a row, each with its result's trailing unit axes: the sum of all entries of a tile. -/
theorem total_apply (w : FVec Ideal ⟨3, ![64, 128, 128]⟩ .f32)
    (hr2 : (⟨3, ![64, 128, 128]⟩ : Shape).Reduces [2] ⟨2, ![64, 128]⟩)
    (hc2 : (⟨2, ![64, 128]⟩ : Shape).ShapeCasts ⟨3, ![64, 128, 1]⟩)
    (hr1 : (⟨3, ![64, 128, 1]⟩ : Shape).Reduces [1] ⟨2, ![64, 1]⟩)
    (hc1 : (⟨2, ![64, 1]⟩ : Shape).ShapeCasts ⟨3, ![64, 1, 1]⟩)
    (hr0 : (⟨3, ![64, 1, 1]⟩ : Shape).Reduces [0] ⟨2, ![1, 1]⟩)
    (hc0 : (⟨2, ![1, 1]⟩ : Shape).ShapeCasts ⟨3, ![1, 1, 1]⟩)
    (hd0 : (⟨3, ![1, 1, 1]⟩ : Shape).ShapeCasts ⟨2, ![1, 1]⟩)
    (hφ : FKind.Formats .f32) (hacc : (0x00000000#32 : BitVec 32) = FKind.add.neutral .f32 hφ) :
    shapeCast ⟨2, ![1, 1]⟩ (shapeCast ⟨3, ![1, 1, 1]⟩
        (multiReduction .add [0] ⟨2, ![1, 1]⟩ (shapeCast ⟨3, ![64, 1, 1]⟩
          (multiReduction .add [1] ⟨2, ![64, 1]⟩ (shapeCast ⟨3, ![64, 128, 1]⟩
            (multiReduction .add [2] ⟨2, ![64, 128]⟩ w 0x00000000#32 hr2 hφ hacc) hc2)
            0x00000000#32 hr1 hφ hacc) hc1)
          0x00000000#32 hr0 hφ hacc) hc0) hd0 (ix2 (0 : Fin 1) (0 : Fin 1))
      = ∑ g : Fin 64, ∑ r : Fin 128, ∑ j : Fin 128, w (ix3 g r j) := by
  rw [shapeCast_ab1_ab_apply, shapeCast_ab_ab1_apply, reduce_axis0_apply]
  refine Finset.sum_congr rfl fun g _ => ?_
  rw [shapeCast_ab_ab1_apply, reduce_axis1_apply]
  refine Finset.sum_congr rfl fun r _ => ?_
  rw [shapeCast_ab_ab1_apply, reduce_axis2_apply]

end Tile

/-- The block a core's first tile starts from: zero everywhere. -/
theorem pay1_apply (y : S8x128.Idx) : k0_pay1 (F := Ideal) y = 0 := by
  unfold k0_pay1
  show Ideal.ofBits .f32 0x00000000#32 = 0
  exact Ideal.ofBits_zero_f32

/-- Every entry of the block gains the tile's corrected sum divided by 1024. -/
theorem pay2_apply (x3 : Vec Ideal S64x128x128 .f32) (l2 : Vec Ideal S64x128 .i32) (a : Vec Ideal S8x128 .f32)
    (y : S8x128.Idx) :
    k0_pay2 (F := Ideal) x3 l2 a y = a y + tileUpdate x3 l2 := by
  obtain ⟨p, q, rfl⟩ : ∃ (p : Fin 8) (q : Fin 128), y = ix2 p q := ⟨y 0, y 1, eq_ix2 y⟩
  unfold k0_pay2
  -- the casts of the block, the scores and the labels to their own shapes change nothing
  rw [shapeCast_self a, shapeCast_self x3, shapeCast_self l2]
  -- the block's entry plus the one entry of the [1, 1] quotient
  refine (addf_apply _ _ _).trans (congrArg (a (ix2 p q) + ·) ?_)
  refine (broadcastTo_11_ab_apply _ _ p q).trans ?_
  refine (congrFun (shapeCast_self _ _) _).trans ?_
  refine (divf_apply _ _ _).trans ?_
  unfold tileUpdate
  refine congrArg₂ Ideal.div ?_ rfl
  refine (subf_apply _ _ _).trans (congrArg (· - tileMargin) ?_)
  -- the three sums give the sum over the whole tile, and each entry is its hinge
  refine (total_apply _ _ _ _ _ _ _ _ _ _).trans ?_
  unfold tileTotal
  refine Finset.sum_congr rfl fun g _ => Finset.sum_congr rfl fun r _ => Finset.sum_congr rfl fun j _ => ?_
  refine (hinge_apply _ _ _ _ g r j).trans ?_
  exact congrArg (fun c => max ((margin - c) + x3 (ix3 g r j)) 0) (pick_apply x3 l2 _ _ _ _ _ _ g r)

end Cert.KernelIdeal.Payload

end
-- ==== Proof.KernelValue.lean ====
/-
  What the kernel program leaves in its result, read off its run.

  The pipeline walks 32 grid points; point `t` stages tile `t` of the regrouped scores and labels and block
  `t / 16` of the array of partial sums.  At the points 0 and 16 the body first stores the zero block and then
  adds the tile's update to it; at every other point it adds the update to what the point before left.  So
  after point `n` every entry of the staged block is the running partial sum `accum … n` (by induction on the
  point).  The block is written back after the points 15 and 31, into rows 0 to 7 and 8 to 15: together they
  tile the array, which therefore ends as `outArr`.  The two host operations after the region sum that array
  and divide by the number of pairs.
-/
import proofs.«417837_j45518063403453_2_alg».proof.Proof.Gen.KernelIdeal.Frame
import proofs.«417837_j45518063403453_2_alg».proof.Proof.Spec
import proofs.«417837_j45518063403453_2_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.MarginLoss Cert.KernelIdeal.Payload

section Pieces
variable {F : FTy → Type} [FloatOps F]

/-! ## What each control case leaves in the output's staging block -/

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not start a block: the one covering store writes the payload of the two input blocks
    and of what the block held before. -/
theorem out_B (c : Dev nD) (i : grid0.Coords) (a2 : Memref sig .tc .vmem S64x128x128 .f32) (h2 : a2.IsWhole)
    (a3 : Memref sig .tc .vmem S64x128 .i32) (h3 : a3.IsWhole) (a4 : Memref sig .tc .vmem S8x128 .f32) (h4 : a4.IsWhole)
    (hc : ¬cond0_0 i) (x0 : Vec F S64x128x128 .f32) (x1 : Vec F S64x128 .i32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread,
    View.ld_unit_zero (S := S64x128x128) hz3, View.ld_unit_zero (S := S64x128) hz2, View.ld_unit_zero (S := S8x128) hz2]

/-- A point that starts a block: the zero block is stored first and read back, so the final store writes the
    payload of the two input blocks and of the zero block. -/
theorem out_A (c : Dev nD) (i : grid0.Coords) (a2 : Memref sig .tc .vmem S64x128x128 .f32) (h2 : a2.IsWhole)
    (a3 : Memref sig .tc .vmem S64x128 .i32) (h3 : a3.IsWhole) (a4 : Memref sig .tc .vmem S8x128 .f32) (h4 : a4.IsWhole)
    (hc : cond0_0 i) (x0 : Vec F S64x128x128 .f32) (x1 : Vec F S64x128 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread,
    View.ld_unit_zero (S := S64x128x128) hz3, View.ld_unit_zero (S := S64x128) hz2, View.ld_unit_zero (S := S8x128) hz2]

end Pieces

/-! ## The windows' blocks are tiles of the argument arrays -/

variable (m : (ℓ : Loc nD τ sig) → Buf (Elt Ideal) ℓ) (ρ : Dev nD → PrngReg)

/-- The scores and the labels as launched, on core `c`. -/
abbrev xarr (c : Dev nD) : FVec Ideal SX .f32 := m ((c : Thread nD τ).loc main_arg0)
abbrev larr (c : Dev nD) : IVec SL 32 := m ((c : Thread nD τ).loc main_arg1)

/-- The region finds the scores regrouped as 2048 groups of 128 rows, -/
theorem V_v0 (c : Dev nD) : (V m c main_v0 : S2048x128x128.Idx → EReal)
    = shapeCast S2048x128x128 (xarr m c) shapeCasts_S262144x128_S2048x128x128 := by
  show StableHlo.after hostOps0 (fun b => m (c, b)) (Proc.devRef .tc main_v0) = _
  after_results
  rfl

/-- and the labels likewise. -/
theorem V_v1 (c : Dev nD) : (V m c main_v1 : S2048x128.Idx → BitVec 32)
    = shapeCast S2048x128 (larr m c) shapeCasts_S262144_S2048x128 := by
  show StableHlo.after hostOps0 (fun b => m (c, b)) (Proc.devRef .tc main_v1) = _
  after_results
  rfl

/-- The printed index maps over the grid: point `t` takes tile `t` of the inputs and block `t / 16` of the output. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0
    ∧ win0_2.index t (0 : Fin 2) = t.val / 16 ∧ win0_2.index t (1 : Fin 2) = 0 :=
  (by decide +kernel : ∀ t : Fin grid0.N, _)

/-- The blocks at point `t`, at their literal types. -/
abbrev xblk (c : Dev nD) (t : Fin cfg0.N) : Vec Ideal S64x128x128 .f32 := iblk m c 0 t
abbrev lblk (c : Dev nD) (t : Fin cfg0.N) : Vec Ideal S64x128 .i32 := iblk m c 1 t

theorem xblk_eq (c : Dev nD) (t : Fin cfg0.N) : xblk m c t = tileX (xarr m c) t.val := by
  have hN : t.val < 32 := lt_of_lt_of_eq t.isLt (show cfg0.N = 32 from N_0)
  obtain ⟨e0, e1, e2, -⟩ := idx_facts t
  funext y
  show V m c main_v0 (((cfg0.win 0).blk t).view.emb y) = _
  rw [V_v0]
  refine (shapeCast_apply _ _ _ (ix2 (row t.val ⟨(y 0).val, (y 0).isLt⟩ ⟨(y 1).val, (y 1).isLt⟩) ⟨(y 2).val, (y 2).isLt⟩) ?_).trans rfl
  rw [Shape.rowMajor_val_two, Shape.rowMajor_val_three]
  have h0 : (y 0).val < 64 := (y 0).isLt
  have h1 : (y 1).val < 128 := (y 1).isLt
  have h2 : (y 2).val < 128 := (y 2).isLt
  show (((t.val % 32) * 64 + (y 0).val) * 128 + (y 1).val) * 128 + (y 2).val
    = ((win0_0.index t (0 : Fin 3) * 64 + 1 * (y 0).val) * 128 + (win0_0.index t (1 : Fin 3) * 128 + 1 * (y 1).val)) * 128 + (win0_0.index t (2 : Fin 3) * 128 + 1 * (y 2).val)
  rw [e0, e1, e2, Nat.mod_eq_of_lt hN]
  omega

theorem lblk_eq (c : Dev nD) (t : Fin cfg0.N) : lblk m c t = tileL (larr m c) t.val := by
  have hN : t.val < 32 := lt_of_lt_of_eq t.isLt (show cfg0.N = 32 from N_0)
  obtain ⟨-, -, -, e3, e4, -⟩ := idx_facts t
  funext y
  show V m c main_v1 (((cfg0.win 1).blk t).view.emb y) = _
  rw [V_v1]
  refine (shapeCast_apply _ _ _ (ix1 (row t.val ⟨(y 0).val, (y 0).isLt⟩ ⟨(y 1).val, (y 1).isLt⟩)) ?_).trans rfl
  rw [Shape.rowMajor_val_one, Shape.rowMajor_val_two]
  have h0 : (y 0).val < 64 := (y 0).isLt
  have h1 : (y 1).val < 128 := (y 1).isLt
  show ((t.val % 32) * 64 + (y 0).val) * 128 + (y 1).val
    = (win0_1.index t (0 : Fin 2) * 64 + 1 * (y 0).val) * 128 + (win0_1.index t (1 : Fin 2) * 128 + 1 * (y 1).val)
  rw [e3, e4, Nat.mod_eq_of_lt hN]
  omega

/-! ## The output's staging block after each point: the running partial sum in every entry -/

theorem outsAt_eq (c : Dev nD) : ∀ (n : ℕ) (h : n < cfg0.N),
    outsAt0 m c n h = fun _ => accum (xarr m c) (larr m c) n
  | 0, h => by
    rw [outsAt0_A m c ⟨0, h⟩ rfl, out_A]
    funext y
    refine (pay2_apply (xblk m c ⟨0, h⟩) (lblk m c ⟨0, h⟩) (k0_pay1 (F := Ideal)) y).trans ?_
    rw [pay1_apply, xblk_eq, lblk_eq]
    rfl
  | n + 1, h => by
    by_cases h0 : (n + 1) % 16 = 0
    · rw [outsAt0_A m c ⟨n + 1, h⟩ h0, out_A]
      funext y
      refine (pay2_apply (xblk m c ⟨n + 1, h⟩) (lblk m c ⟨n + 1, h⟩) (k0_pay1 (F := Ideal)) y).trans ?_
      rw [pay1_apply, xblk_eq, lblk_eq]
      show _ = accum (xarr m c) (larr m c) (n + 1)
      rw [accum, if_pos h0]
      rfl
    · rw [outsAt0_B m c ⟨n + 1, h⟩ h0, out_B]
      funext y
      refine (pay2_apply (xblk m c ⟨n + 1, h⟩) (lblk m c ⟨n + 1, h⟩) _ y).trans ?_
      rw [xblk_eq, lblk_eq]
      show outsAt0 m c n _ y + _ = accum (xarr m c) (larr m c) (n + 1)
      rw [outsAt_eq c n, accum, if_neg h0]
      rfl

/-! ## The array of partial sums after the run -/

/-- What a flushing point writes back is its block of `outArr`: the points 15 and 31 write blocks 0 and 1. -/
theorem flushed_eq (c : Dev nD) (t : Fin cfg0.N) (hf : (cfg0.win 2).flush t = true) :
    (dats m 0 c).flushed 2 t = ((cfg0.win 2).blk t).view.read (Elt Ideal) (outArr (xarr m c) (larr m c)) := by
  have h15 : t.val % 16 = 15 := (flush0_2 t).mp hf
  obtain ⟨-, -, -, -, -, e5, e6⟩ := idx_facts t
  show (cfg0.win 2).cut (grid0.coords t) ((dats m 0 c).after 2 t) = _
  rw [after0_2, outsAt_eq]
  funext j
  show accum (xarr m c) (larr m c) t.val = outArr (xarr m c) (larr m c) (((cfg0.win 2).blk t).view.emb j)
  unfold outArr
  congr 1
  show t.val = 16 * ((win0_2.index t (0 : Fin 2) * 8 + 1 * (j 0).val) / 8) + 15
  have hj : (j 0).val < 8 := (j 0).isLt
  rw [e5]
  omega

/-- The two blocks tile the array. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  let t : Fin cfg0.N := ⟨16 * ((i 0).val / 8) + 15, by rw [hN]; omega⟩
  have ht : t.val = 16 * ((i 0).val / 8) + 15 := rfl
  obtain ⟨-, -, -, -, -, e5, e6⟩ := idx_facts t
  refine ⟨t, (flush0_2 t).mpr (by rw [ht]; omega), ?_⟩
  show i ∈ ((View.whole main_v2).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    rw [e5, ht]; omega
  | ⟨1, _⟩ =>
    show win0_2.index t (1 : Fin 2) * 128 ≤ (i 1).val ∧ (i 1).val < win0_2.index t (1 : Fin 2) * 128 + 128
    rw [e6]; omega

theorem final_out (c : Dev nD) : (dats m 0 c).arrAt 2 cfg0.N = outArr (xarr m c) (larr m c) :=
  (dats m 0 c).arrAt_eq_of_cover 2 (outArr (xarr m c) (larr m c)) (flushed_eq m c) (cover)

/-! ## The host operations after the region -/

/-- The kernel program's result: the sum of the array of partial sums, divided by the number of pairs. -/
def result (c : Dev nD) : S_.Idx → EReal :=
  Host.divf (F := Ideal)
    (Host.reduceAdd (F := Ideal) (outArr (xarr m c) (larr m c)) (constant (F := Ideal) S_ .f32 0x00000000#32)
      reducesTo_S16x128_S_d0_1 h_S_)
    (constant (F := Ideal) S_ .f32 0x4BFE0000#32)

theorem tail_v4 (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = outArr (xarr m c) (larr m c) :=
    (Pipeline.withArrays_arr spec0 launch0.win.arr_inj c _ _ 2).trans (final_out m c)
  rw [e]
  rfl

/-! ## The run, read -/

/-- Every weakly fair execution of the kernel program ends with its result at `result` and the arguments as
    launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Value

end
-- ==== Proof.RefValue.lean ====
/-
  The array the reference sums, entry by entry: with every label a column of its row, the gather reads the
  score in the label's column, the range test passes, and the select keeps the hinge off the label's column.
-/
import proofs.«417837_j45518063403453_2_alg».proof.Proof.RefRead
import proofs.«417837_j45518063403453_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.ReduceAll

noncomputable section

namespace Cert.ReferenceIdeal.RefValue

open Idealize.ShloMosaic Idealize.ShloMosaic.ValueIdx Cert.ReferenceIdeal Cert.ReferenceIdeal.Gen Cert.ReferenceIdeal.ReadP
open Cert.MarginLoss

/-! ## The start index of a row -/

/-- A word below 128 is not negative when read signed. -/
theorem not_slt_zero (a : BitVec 32) (ha : a.toNat < 128) : IntOp.cmpi .slt a 0#32 = 0#1 := by
  refine eq_zero_of_ne_one fun h => ?_
  have h1 := (StableHlo.Predicate.slt_iff_toNat (a := a) (b := 0#32) (by omega) (by decide)).1 h
  have h0 : (0#32 : BitVec 32).toNat = 0 := rfl
  omega

/-- The wrapped start index of row n is the label itself: a label that is a column is not negative, so nothing is
    added to it. -/
theorem start_word (lab : IVec SL 32) (hlab : ∀ n : Fin 262144, (lab (ix1 n)).toNat < 128) (n : Fin 262144)
    (r : S262144x1.Idx) (hr : (r 0).val = n.val) :
    val_main_call0_v4 (F := Ideal) lab r = lab (ix1 n) := by
  have e : idx_main_v0 r = ix1 n := funext fun a => Fin.ext (by match a with | ⟨0, _⟩ => exact hr)
  rw [val_main_call0_v4_apply, val_main_call0_v1_apply, val_main_v0_apply, e, val_main_call0_v0_apply,
    val_main_call0_c_apply, not_slt_zero _ (hlab n)]
  exact select_zero _ _

/-- The same word after the reshape to a column of one-element index vectors. -/
theorem idx_word (lab : IVec SL 32) (hlab : ∀ n : Fin 262144, (lab (ix1 n)).toNat < 128) (n : Fin 262144)
    (i : S262144x1x1.Idx) (hi : (i 0).val = n.val) :
    val_main_call0_v5 (F := Ideal) lab i = lab (ix1 n) := by
  rw [val_main_call0_v5_apply]
  refine start_word lab hlab n _ ?_
  have h1 : (i 1).val < 1 := (i 1).isLt
  have h2 : (i 2).val < 1 := (i 2).isLt
  show (((i 0).val * 1 + (i 1).val) * 1 + (i 2).val) / 1 = n.val
  omega

/-! ## The range test -/

/-- Every start index passes the range test: it is at least 0 and at most 127 read signed. -/
theorem inb_elem (lab : IVec SL 32) (hlab : ∀ n : Fin 262144, (lab (ix1 n)).toNat < 128) (i : S262144x1x1.Idx) :
    val_main_call0_v11 (F := Ideal) lab i = 1#1 := by
  have hw := idx_word lab hlab ⟨(i 0).val, (i 0).isLt⟩ i rfl
  have hl := hlab ⟨(i 0).val, (i 0).isLt⟩
  have h0 : (0#32 : BitVec 32).toNat = 0 := rfl
  have h127 : (127#32 : BitVec 32).toNat = 127 := rfl
  rw [val_main_call0_v11_apply, val_main_call0_v7_apply, val_main_call0_v10_apply, hw, val_main_call0_v6_apply,
    val_main_call0_c_2_apply, val_main_call0_v9_apply, val_main_call0_v8_apply, val_main_call0_c_1_apply]
  exact IntOp.andi_eq_one.2 ⟨(StableHlo.Predicate.sge_iff_toNat (by omega) (by decide)).2 (by omega),
    (StableHlo.Predicate.sle_iff_toNat (by omega) (by decide)).2 (by omega)⟩

/-- A left fold by and over one-bit words that are all 1, started at 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_one f hf l

/-- So the and over each row's one-element index vector is 1. -/
theorem inb (lab : IVec SL 32) (hlab : ∀ n : Fin 262144, (lab (ix1 n)).toNat < 128) (r : S262144x1.Idx) :
    val_main_call0_v12 (F := Ideal) lab r = 1#1 := by
  unfold val_main_call0_v12
  rw [Host.reduce_eq_foldl]
  have h1 : val_main_call0_c_3 (F := Ideal) (Shape.Idx.first h_S_) = 1#1 := rfl
  rw [h1]
  exact foldl_andi_one _ (inb_elem lab hlab) _

/-! ## The gather -/

/-- On the operand's first axis, the batching axis, the gather reads the result's own row. -/
theorem gather_axis0 (idx : IVec S262144x1x1 32) (j : S262144x1.Idx) :
    gather_S262144x128_S262144x1x1_S262144x1_n_1_0_0_1_2_11.start j idx (0 : Fin 2)
      + gather_S262144x128_S262144x1x1_S262144x1_n_1_0_0_1_2_11.batchCoord j (0 : Fin 2)
      + gather_S262144x128_S262144x1x1_S262144x1_n_1_0_0_1_2_11.offCoord j (0 : Fin 2) = (j 0).val := by
  have hb : (0 : Fin 2) ∈ gather_S262144x128_S262144x1x1_S262144x1_n_1_0_0_1_2_11.operandBatchingDims :=
    List.mem_singleton.mpr rfl
  rw [GatherDims.start_batching _ _ _ _ hb,
    GatherDims.offCoord_eq_zero _ _ _ (fun h => ((GatherDims.mem_sKept _ _).mp h).2 hb)]
  unfold GatherDims.batchCoord
  rw [dif_pos hb, Nat.zero_add, Nat.add_zero]
  rfl

/-- On the second axis, the collapsed one the start index addresses, it reads the row's start index, read signed and
    clamped into the row. -/
theorem gather_axis1 (idx : IVec S262144x1x1 32) (n : Fin 262144) :
    gather_S262144x128_S262144x1x1_S262144x1_n_1_0_0_1_2_11.start (ix2 n (0 : Fin 1)) idx (1 : Fin 2)
      + gather_S262144x128_S262144x1x1_S262144x1_n_1_0_0_1_2_11.batchCoord (ix2 n (0 : Fin 1)) (1 : Fin 2)
      + gather_S262144x128_S262144x1x1_S262144x1_n_1_0_0_1_2_11.offCoord (ix2 n (0 : Fin 1)) (1 : Fin 2)
      = min (idx (ix3 n (0 : Fin 1) (0 : Fin 1))).toInt.toNat 127 := by
  have hm : (1 : Fin 2) ∈ gather_S262144x128_S262144x1x1_S262144x1_n_1_0_0_1_2_11.startIndexMap :=
    List.mem_singleton.mpr rfl
  have hc : (1 : Fin 2) ∈ gather_S262144x128_S262144x1x1_S262144x1_n_1_0_0_1_2_11.collapsedSliceDims :=
    List.mem_singleton.mpr rfl
  have hb : (1 : Fin 2) ∉ gather_S262144x128_S262144x1x1_S262144x1_n_1_0_0_1_2_11.operandBatchingDims := by decide
  rw [GatherDims.batchCoord_eq_zero _ _ _ hb,
    GatherDims.offCoord_eq_zero _ _ _ (fun h => ((GatherDims.mem_sKept _ _).mp h).1 hc)]
  simp only [Nat.add_zero]
  unfold GatherDims.start
  rw [dif_pos hm]
  have hsi : gather_S262144x128_S262144x1x1_S262144x1_n_1_0_0_1_2_11.siIdx (ix2 n (0 : Fin 1))
      ⟨List.idxOf (1 : Fin 2) gather_S262144x128_S262144x1x1_S262144x1_n_1_0_0_1_2_11.startIndexMap,
        List.idxOf_lt_length_iff.2 hm⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- The gather at row n: the score of row n in the column its start index names. -/
theorem gather_row (x : FVec Ideal SX .f32) (idx : IVec S262144x1x1 32) (n : Fin 262144) (c : Fin 128)
    (hc : c.val = min (idx (ix3 n (0 : Fin 1) (0 : Fin 1))).toInt.toNat 127) :
    Host.gather gather_S262144x128_S262144x1x1_S262144x1_n_1_0_0_1_2_11 x idx (ix2 n (0 : Fin 1)) = x (ix2 n c) := by
  unfold Host.gather
  congr 1
  funext a
  refine Fin.ext ?_
  match a with
  | ⟨0, _⟩ => exact gather_axis0 idx _
  | ⟨1, _⟩ => exact (gather_axis1 idx n).trans hc.symm

/-! ## The reference's array -/

/-- What the reference takes along the rows: at row n the score in the label's column. -/
theorem picked (x : FVec Ideal SX .f32) (lab : IVec SL 32) (hlab : ∀ n : Fin 262144, (lab (ix1 n)).toNat < 128)
    (n : Fin 262144) :
    val_main_v1 (F := Ideal) x lab (ix2 n (0 : Fin 1)) = x (ix2 n (labCol lab n)) := by
  rw [val_main_v1_apply, inb lab hlab, select_one]
  unfold val_main_call0_v13
  exact gather_row x _ n (labCol lab n) (by rw [idx_word lab hlab n _ rfl]; rfl)

theorem masked_eq (x : FVec Ideal SX .f32) (lab : IVec SL 32)
    (hlab : ∀ n : Fin 262144, (lab (ix1 n)).toNat < 128) :
    val_main_v14 (F := Ideal) x lab = masked x lab := by
  funext i
  obtain ⟨n, j, rfl⟩ : ∃ (n : Fin 262144) (j : Fin 128), i = ix2 n j :=
    ⟨⟨(i 0).val, idx2_lt0 i⟩, ⟨(i 1).val, idx2_lt1 i⟩, by funext a; match a with | ⟨0, _⟩ => rfl | ⟨1, _⟩ => rfl⟩
  have e4 : idx_main_v4 (ix2 n j) = ix2 n (0 : Fin 1) :=
    funext fun a => Fin.ext (by match a with | ⟨0, _⟩ => rfl | ⟨1, _⟩ => rfl)
  have e10 : idx_main_v10 (idx_main_v12 (ix2 n j)) = ix1 n :=
    funext fun a => Fin.ext (by match a with | ⟨0, _⟩ => rfl)
  show _ = maskedAt x lab n j
  rw [val_main_v14_apply, val_main_v13_apply, val_main_v11_apply, val_main_v9_apply, val_main_v8_apply,
    val_main_v12_apply, val_main_v10_apply, e10, val_main_v7_apply, val_main_v5_apply, val_main_v4_apply, e4,
    val_main_v3_apply, picked x lab hlab n, val_main_v2_apply, val_main_cst_apply, val_main_v6_apply,
    val_main_cst_0_apply, val_main_call1_v1_apply, val_main_call1_v0_apply, val_main_cst_1_apply]
  show Scalar.select (IntOp.cmpi .ne (BitVec.ofNat 32 j.val) (lab (ix1 n)))
      (max ((margin - x (ix2 n (labCol lab n))) + x (ix2 n j)) (Ideal.ofBits .f32 0x00000000#32))
      (Ideal.ofBits .f32 0x00000000#32) = _
  unfold maskedAt
  rw [Ideal.ofBits_zero_f32]
  by_cases h : BitVec.ofNat 32 j.val = lab (ix1 n)
  · have hc : IntOp.cmpi .ne (BitVec.ofNat 32 j.val) (lab (ix1 n)) = 0#1 := by
      rw [h]; simp [IntOp.cmpi]
    rw [if_pos h, hc, select_zero]
  · have hc : IntOp.cmpi .ne (BitVec.ofNat 32 j.val) (lab (ix1 n)) = 1#1 := by
      show BitVec.ofBool (BitVec.ofNat 32 j.val != lab (ix1 n)) = 1#1
      exact (StableHlo.Predicate.ofBool_eq_one_iff _).2 (bne_iff_ne.2 h)
    rw [if_neg h, hc, select_one]

end Cert.ReferenceIdeal.RefValue

end
-- ==== Proof.lean ====
/-
  The certificate of the margin ranking loss kernel against its reference.

  Both programs compute, from 262144 rows of 128 scores and one label per row, the sum over all rows and all
  columns other than the label's of `max ((margin - score at the label) + score) 0`, divided by 262144 * 127.
  The reference gathers the score at the label and masks the label's column out.  The kernel finds that
  score as a one-hot sum, adds the hinges of all 128 columns tile by tile, and takes 8192 margins off each
  tile's sum, since the label's own column contributes exactly `margin` in each of a tile's 8192 rows; it
  spreads each tile's corrected sum over the 1024 entries of a block of partial sums and sums the blocks at
  the end.

  The two agree when every score is a real number, so that `(margin - c) + c = margin` and a sum divided by
  1024 and added up 1024 times is the sum again, and when every label is a column 0 .. 127 of its row: a
  label outside that range makes the reference's gather wrap or fill while the kernel's one-hot sum sees no
  column at all.  Both are what the precondition says (`pre_decode`).  The margin enters both programs as one
  binary value, and the kernel's per-tile constant is 8192 times that same value, bit for bit.

  `Spec.lean` states the mathematics; `KernelPayload.lean` and `KernelValue.lean` read the kernel's run;
  `RefValue.lean` reads the reference's; `Algebra.lean` is the sum identity; `PreDecode.lean` opens the
  precondition.
-/
import proofs.«417837_j45518063403453_2_alg».proof.Defs
import proofs.«417837_j45518063403453_2_alg».proof.Proof.Gen.Kernel
import proofs.«417837_j45518063403453_2_alg».proof.Proof.Gen.Kernel.Frame
import proofs.«417837_j45518063403453_2_alg».proof.Proof.Gen.KernelIdeal
import proofs.«417837_j45518063403453_2_alg».proof.Proof.Gen.KernelIdeal.Frame
import proofs.«417837_j45518063403453_2_alg».proof.Proof.Gen.ReferenceIdeal
import proofs.«417837_j45518063403453_2_alg».proof.Proof.Gen.Pre_finite_inputs
import proofs.«417837_j45518063403453_2_alg».proof.Proof.Spec
import proofs.«417837_j45518063403453_2_alg».proof.Proof.Algebra
import proofs.«417837_j45518063403453_2_alg».proof.Proof.PreDecode
import proofs.«417837_j45518063403453_2_alg».proof.Proof.KernelValue
import proofs.«417837_j45518063403453_2_alg».proof.Proof.RefRead
import proofs.«417837_j45518063403453_2_alg».proof.Proof.RefValue
import Idealize.ShloMosaic.PureOps.Ideal.Laws
import Idealize.ShloMosaic.Adequacy
import Idealize.ShloMosaic.Init

noncomputable section

open Idealize.ShloMosaic Idealize.ShloMosaic.TcCoe Idealize.SL.Sem Idealize.ShloMosaic.ValueIdx

namespace Cert.Proof

open Cert.MarginLoss

/-- The word-level kernel and its idealization terminate without fault and keep their arguments. -/
theorem frame_k : Cert.frame_Kernel := fun m ρ _ => Cert.Kernel.Gen.frame m ρ
theorem frame_ki : Cert.frame_KernelIdeal := fun m ρ _ => Cert.KernelIdeal.Gen.frame m ρ
/-- The reference is a straight line of host operations; its run keeps its arguments. -/
theorem frame_ri : Cert.frame_ReferenceIdeal := fun m ρ _ =>
  (θ_run Cert.ReferenceIdeal.defs _ _).mono (fun _ h c => (h c).2) (Cert.ReferenceIdeal.RunP.run (F := Ideal) m ρ)

/-- No constant of the kernel is read other than as its binary value. -/
theorem preserves : Cert.preserves_Kernel_KernelIdeal := trivial

/-- Both programs end at the same quotient: the kernel's total over its array of partial sums and the
    reference's masked total are one extended real when the scores are real and the labels are columns. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.RunP.run (F := Ideal) m' ρ')
  obtain ⟨hfin, hlab⟩ := pre_decode _ _ (hpre c)
  rw [Cert.ReferenceIdeal.ReadP.val_main_v16_eq, (hagree c).1, (hagree c).2]
  unfold Cert.ReferenceIdeal.ReadP.val_main_v16 Cert.ReferenceIdeal.ReadP.val_main_v15
  rw [Cert.ReferenceIdeal.RefValue.masked_eq _ _ hlab]
  unfold Cert.KernelIdeal.Value.result
  funext i
  show FloatOps.hostDivf (F := Ideal) (Host.reduceAdd (F := Ideal) (masked _ _) _ _ _ i) _
    = FloatOps.hostDivf (F := Ideal) (Host.reduceAdd (F := Ideal) (outArr _ _) _ _ _ i) _
  have hr : Host.reduceAdd (F := Ideal)
      (masked (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.ReadP.val_main_cst_2 (F := Ideal)) Cert.ReferenceIdeal.Gen.reducesTo_S262144x128_S_d0_1
      Cert.ReferenceIdeal.Gen.h_S_ i
      = Ideal.ofBits .f32 0x00000000#32 + ∑ j : SX.Idx,
        masked (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) j := by
    simp only [Host.reduceAdd, Ideal.hostReduceAdd_def]
    exact Ideal.hostReduceAdd_total _ (fun b => b.elim0) _ _ i
  have hk : Host.reduceAdd (F := Ideal)
      (outArr (Cert.KernelIdeal.Value.xarr m c) (Cert.KernelIdeal.Value.larr m c))
      (constant (F := Ideal) Cert.KernelIdeal.S_ .f32 0x00000000#32) Cert.KernelIdeal.Gen.reducesTo_S16x128_S_d0_1
      Cert.KernelIdeal.Gen.h_S_ i
      = Ideal.ofBits .f32 0x00000000#32 + ∑ y : SO.Idx,
        outArr (Cert.KernelIdeal.Value.xarr m c) (Cert.KernelIdeal.Value.larr m c) y := by
    simp only [Host.reduceAdd, Ideal.hostReduceAdd_def]
    exact Ideal.hostReduceAdd_total _ (fun b => b.elim0) _ _ i
  rw [hr, hk, total_eq _ _ hfin hlab]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
